-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S2048x256 : Shape := ⟨2, ![2048, 256]⟩
abbrev S2048 : Shape := ⟨1, ![2048]⟩
abbrev S2048x1 : Shape := ⟨2, ![2048, 1]⟩
abbrev S8192x8192 : Shape := ⟨2, ![8192, 8192]⟩
abbrev S1024x256 : Shape := ⟨2, ![1024, 256]⟩
abbrev S1024x1024 : Shape := ⟨2, ![1024, 1024]⟩

abbrev nBuf : Space → Nat
  | .hbm => 3
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .bf16⟩
  | .hbm, ⟨2, _⟩ => ⟨S8192x8192, .f32⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x1024, .f32⟩
  | .local _ .vmem, ⟨9, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  bitsLt_bf16_f32 : FTy.bits .bf16 < FTy.bits .f32
  packedbf16_S2048x256_S2048x256_0_0 : (Rect.unit (s := S2048x256) ![0, 0] S2048x256.size inb_S2048x256_S2048x256_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .bf16 = 32 ∨ (Rect.block (s := S8192x256) S2048x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .bf16 = 32 ∨ (Rect.block (s := S8192x256) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩

abbrev nBuf : Space → Nat
  | .hbm => 16
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x256, .f32⟩
  | .hbm, ⟨10, _⟩ => ⟨S8192x256, .f32⟩
  | .hbm, ⟨11, _⟩ => ⟨S256x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Kernel.NormRegion.lean ====
/-
  The first kernel region: the row-normalising kernel on its grid of 4 points.

  At point `t` the pipeline stages rows `2048·t … 2048·t + 2047` of the feature matrix (window 0), the body
  computes from that block alone one block of the same shape and stores it whole into window 1's staging buffer,
  and the pipeline writes that buffer back to rows `2048·t …` of the intermediate array. This module states
  what the body leaves (`Norm.out`), proves the body's triple, and gives the region's proof data at any contents
  `V` the region may be entered from.
-/
import proofs.«110378_j41815801594316_1_alg».proof.Proof.Gen.Kernel.Launch
import proofs.«110378_j41815801594316_1_alg».proof.Proof.Gen.Kernel.Skeleton
import proofs.«110378_j41815801594316_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at every point, for any proof data that reads the array
    off `V` and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The one rectangle the body loads and stores through: the whole 2048 × 256 block. -/
abbrev whole : Rect S2048x256 := Rect.unit (s := S2048x256) ![0, 0] S2048x256.size inb_S2048x256_S2048x256_0_0

/-- What the body leaves in the output window's staging buffer, from the feature block: its one store. -/
def out (x0 : Vec F S2048x256 .f32) : Vec F S2048x256 .bf16 :=
  View.canon [⟨whole, k0_pay1 (View.ld x0 whole)⟩]

/-- The one store covers the buffer. -/
theorem cover (p0 : Vec F S2048x256 .bf16) (y : S2048x256.Idx) :
    ∃ pc ∈ ([⟨whole, p0⟩] : List (View.Piece (Elt F) S2048x256 .bf16)), y ∈ pc.1.set :=
  View.cover_of_tiled [⟨whole, p0⟩] S2048x256.size (by rfl) y

set_option maxHeartbeats 1000000 in
/-- The body on whole staging memrefs, the feature block at `x0` and the output buffer at anything, runs to the
    continuation with the feature block as it was and the output buffer at `out x0`. -/
theorem sound_kernel (c : Dev nD) (E : Set ℕ) (i : grid0.Coords) (arg1 : Memref sig .tc .vmem S2048x256 .f32) (harg1 : arg1.IsWhole)
    (arg2 : Memref sig .tc .vmem S2048x256 .bf16) (harg2 : arg2.IsWhole)
    (x0 : Vec F S2048x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc0__norm_kernel i arg1 harg1 arg2 harg2) K := by
  simp only [cc0__norm_kernel_eq_skeleton]; unfold cc0__norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

/-- The region's proof data on core `c`: the arrays as the region finds them; after the body at point `t` the
    feature window's buffer at its block and the output window's at `out` of that block; the invariant the
    scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => out (blk V c 0 t)
  Φ _ := Pipeline.ΦA spec0 c
  q _ := fullShare
  owed _ := 0

theorem A_eq (c : Dev nD) (w : Fin cfg0.W) : (dat V c).A w = V c (Pipeline.arrRef spec0 w) := by
  dsimp only [dat]
theorem after_in (c : Dev nD) (t : Fin cfg0.N) : (dat V c).after 0 t = blk V c 0 t := by dsimp only [dat]
theorem after_out (c : Dev nD) (t : Fin cfg0.N) : (dat V c).after 1 t = out (blk V c 0 t) := by dsimp only [dat]

theorem before_in (c : Dev nD) (t : Fin cfg0.N) (d) : (dat V c).before 0 t d = blk V c 0 t :=
  before_in_of V (dat V c) (A_eq V c 0) (after_in V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).Φ t.succ = (dat V c).Φ t.castSucc from rfl,
    show (dat V c).owesAt () t.succ = (dat V c).owesAt () t.castSucc from rfl,
    after_in, after_out]
  iintro ⟨HΦ, Ho, ⟨%d0, H0⟩, ⟨%d1, H1⟩⟩
  iapply (sound_kernel c Set.univ _ _ _ _ _ (blk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the pipeline rule, at every point. -/
theorem body_obligation (c : Dev nD) : BodyObligation (dat (F := F) V c) (defs₀ (F := F)) Variants.none () Set.univ := fun t => by
  rw [bigSep_W0, bigSep_W0]
  exact sound_body V c t

end Cert.Kernel.Norm

end
-- ==== Proof.Kernel.GemmRegion.lean ====
/-
  The second kernel region: the similarity kernel on its 8 × 8 grid.

  At point `(i, j)` the pipeline stages rows `1024·i …` of the intermediate array through window 0 and rows
  `1024·j …` of the SAME array through window 1; the body contracts the two blocks over their 256 columns,
  clamps at zero and stores the 1024 × 1024 result whole into window 2's staging buffer, which the pipeline
  writes back as block `(i, j)` of the result. Because two windows read one array, the region holds that
  array as two complementary shares, one per window (`dat`'s `q`).
-/
import proofs.«110378_j41815801594316_1_alg».proof.Proof.Gen.Kernel.Launch
import proofs.«110378_j41815801594316_1_alg».proof.Proof.Gen.Kernel.Skeleton
import proofs.«110378_j41815801594316_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gemm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block at every point, refetched there or not. -/
theorem before_rows_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The column-block window's likewise. -/
theorem before_cols_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The rectangles the body loads and stores through: each a whole block. -/
abbrev wholeIn : Rect S1024x256 := Rect.unit (s := S1024x256) ![0, 0] S1024x256.size inb_S1024x256_S1024x256_0_0
abbrev wholeOut : Rect S1024x1024 := Rect.unit (s := S1024x1024) ![0, 0] S1024x1024.size inb_S1024x1024_S1024x1024_0_0

/-- What the body leaves in the result window's staging buffer, from the two row blocks: its one store. -/
def out (a b : Vec F S1024x256 .bf16) : Vec F S1024x1024 .f32 :=
  View.canon [⟨wholeOut, k1_pay1 (View.ld a wholeIn) (View.ld b wholeIn)⟩]

/-- The one store covers the buffer. -/
theorem cover (p0 : Vec F S1024x1024 .f32) (y : S1024x1024.Idx) :
    ∃ pc ∈ ([⟨wholeOut, p0⟩] : List (View.Piece (Elt F) S1024x1024 .f32)), y ∈ pc.1.set :=
  View.cover_of_tiled [⟨wholeOut, p0⟩] S1024x1024.size (by rfl) y

set_option maxHeartbeats 1000000 in
/-- The body on whole staging memrefs, the two row blocks at `a` and `b` and the result buffer at anything, runs
    to the continuation with the row blocks as they were and the result buffer at `out a b`. -/
theorem sound_kernel (c : Dev nD) (E : Set ℕ) (i : grid1.Coords) (arg2 : Memref sig .tc .vmem S1024x256 .bf16) (harg2 : arg2.IsWhole)
    (arg3 : Memref sig .tc .vmem S1024x256 .bf16) (harg3 : arg3.IsWhole)
    (arg4 : Memref sig .tc .vmem S1024x1024 .f32) (harg4 : arg4.IsWhole)
    (a b : Vec F S1024x256 .bf16) (K : PUnit → sProp 𝕄) :
    iprop(owns (c : Thread nD τ) arg2 fullShare a ∗ owns (c : Thread nD τ) arg3 fullShare b ∗ (∃ d, owns (c : Thread nD τ) arg4 fullShare d)
        ∗ (iprop(owns (c : Thread nD τ) arg2 fullShare a ∗ owns (c : Thread nD τ) arg3 fullShare b
            ∗ owns (c : Thread nD τ) arg4 fullShare (out a b)) -∗ K ⟨⟩))
      ⊢ wp frame (wpE (defs₀ (F := F)) Variants.none c none) E (cc1__gemm_clamp_kernel i arg2 harg2 arg3 harg3 arg4 harg4) K := by
  simp only [cc1__gemm_clamp_kernel_eq_skeleton]; unfold cc1__gemm_clamp_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The region's proof data on core `c`: the arrays as the region finds them; after the body at point `t` each
    input window's buffer at its block and the result window's at `out` of the two blocks; the invariant the
    scoped rest and the generator register, untouched; nothing owed; the shared input array held as its left half
    share by the row-block window and as its right half share by the column-block window. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => out (blk V c 0 t) (blk V c 1 t)
  Φ _ := Pipeline.ΦA spec1 c
  q w := match w with
    | ⟨0, _⟩ => (fullShare : PosShare TreeShare).left
    | ⟨1, _⟩ => (fullShare : PosShare TreeShare).right
    | ⟨2, _⟩ => fullShare
  owed _ := 0

theorem A_eq (c : Dev nD) (w : Fin cfg1.W) : (dat V c).A w = V c (Pipeline.arrRef spec1 w) := by
  dsimp only [dat]
theorem after_rows (c : Dev nD) (t : Fin cfg1.N) : (dat V c).after 0 t = blk V c 0 t := by dsimp only [dat]
theorem after_cols (c : Dev nD) (t : Fin cfg1.N) : (dat V c).after 1 t = blk V c 1 t := by dsimp only [dat]
theorem after_out (c : Dev nD) (t : Fin cfg1.N) : (dat V c).after 2 t = out (blk V c 0 t) (blk V c 1 t) := by dsimp only [dat]

theorem before_rows (c : Dev nD) (t : Fin cfg1.N) (d) : (dat V c).before 0 t d = blk V c 0 t :=
  before_rows_of V (dat V c) (A_eq V c 0) (after_rows V c) t d
theorem before_cols (c : Dev nD) (t : Fin cfg1.N) (d) : (dat V c).before 1 t d = blk V c 1 t :=
  before_cols_of V (dat V c) (A_eq V c 1) (after_cols V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_cols]
  rw [show (dat V c).Φ t.succ = (dat V c).Φ t.castSucc from rfl,
    show (dat V c).owesAt () t.succ = (dat V c).owesAt () t.castSucc from rfl,
    after_rows, after_cols, after_out]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline rule, at every point. -/
theorem body_obligation (c : Dev nD) : BodyObligation (dat (F := F) V c) (defs₀ (F := F)) Variants.none () Set.univ := fun t => by
  rw [bigSep_W1, bigSep_W1]
  exact sound_body V c t

end Cert.Kernel.Gemm

end
-- ==== Proof.Kernel.GemmShares.lean ====
/-
  The similarity region holds ONE array through two windows. At its entry the array's buffer, held whole, is
  split along the share into a left half for the row-block window and a right half for the column-block window;
  at its exit the two halves, still at the contents they were split at, are joined back. The result array is
  held outright by its one window.
-/
import proofs.«110378_j41815801594316_1_alg».proof.Proof.Kernel.GemmRegion

set_option maxRecDepth 16384

noncomputable section

namespace Cert.Kernel.Gemm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the region's three windows are two: the intermediate array and the result array. -/
theorem arrRefs_eq : (Finset.univ.image (Pipeline.arrRef spec1) : Finset (Ref sig .tc)) = insert main_v0 {main_v1} := by decide

/-- The three windows' shares: the two halves of the full share, and the full share. -/
theorem share_rows (c : Dev nD) : (dat V c).share 0 = (fullShare : PosShare TreeShare).left := rfl
theorem share_cols (c : Dev nD) : (dat V c).share 1 = (fullShare : PosShare TreeShare).right := rfl
theorem share_out (c : Dev nD) : (dat V c).share 2 = fullShare := rfl

/-- ENTRY: the two buffers whole at the entry contents are the region's arrays at their entry contents. -/
theorem arrays_of_bufs (c : Dev nD) :
    (Pipeline.arrBufs (Ix := Unit) (Name := ℕ) (U := UR sig nD τ) (Lvl := ℕ) spec1 c (V c) : sProp 𝕄)
      ⊢ (dat V c).arrays ((dat V c).arrAt · 0) := by
  unfold Pipeline.arrBufs Dat.arrays
  rw [arrRefs_eq, bigSep_insert (by decide), bigSep_singleton, bigSep_W1]
  rw [(arr_whole1 0).set_eq_univ, (arr_whole1 2).set_eq_univ, share_rows, share_cols, share_out]
  refine (show iprop((((c : Thread nD τ).loc main_v0) ↦{fullShare} V c main_v0) ∗ (((c : Thread nD τ).loc main_v1) ↦{fullShare} V c main_v1)) ⊢ _ from ?_)
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-- EXIT: the region's arrays at their final contents are the two buffers whole at any valuation that keeps the
    intermediate array as it was entered and has the result array at what the write-backs leave. -/
theorem bufs_of_arrays (c : Dev nD) (V' : (b : Ref sig .tc) → Buf (Elt F) ((c : Thread nD τ).loc b))
    (h0 : V' main_v0 = V c main_v0) (h1 : V' main_v1 = (dat V c).arrAt 2 cfg1.N) :
    (dat V c).arrays ((dat V c).arrAt · cfg1.N)
      ⊢ (Pipeline.arrBufs (Ix := Unit) (Name := ℕ) (U := UR sig nD τ) (Lvl := ℕ) spec1 c V' : sProp 𝕄) := by
  unfold Pipeline.arrBufs Dat.arrays
  rw [arrRefs_eq, bigSep_insert (by decide), bigSep_singleton, bigSep_W1]
  rw [(arr_whole1 0).set_eq_univ, (arr_whole1 2).set_eq_univ, share_rows, share_cols, share_out, h0, h1]
  dsimp only
  rw [(dat V c).arrAt_in 0 rfl cfg1.N, (dat V c).arrAt_in 1 rfl cfg1.N, A_eq, A_eq]
  refine (show _ ⊢ iprop((((c : Thread nD τ).loc main_v0) ↦{fullShare} V c main_v0) ∗ (((c : Thread nD τ).loc main_v1) ↦{fullShare} (dat V c).arrAt 2 cfg1.N)) from ?_)
  iintro ⟨Hl, Hr, H1⟩
  isplitl [Hl Hr]
  · iapply (pointsTo_share (PosShare.mem_left_op_right fullShare)).2
    isplitl [Hl]; · iexact Hl
    iexact Hr
  iexact H1

end Cert.Kernel.Gemm

end
-- ==== Proof.Kernel.Run.lean ====
/-
  The whole program: the row-normalising region, then the similarity region.

  Between the two regions, and at the end, a core's unscoped buffers are held whole at named contents: at launch
  the memory's (`W0`); after the first region the same but for the intermediate array, which holds what the
  first region's write-backs leave (`W1`); after the second the same but for the result array, which holds what
  the second region's write-backs leave (`W2`). Each region takes its arrays out of that state, runs its pipeline,
  and puts them back; the generator register and the (empty) debt ride along. The run theorem reads the result
  array and the argument array off the last state.
-/
import proofs.«110378_j41815801594316_1_alg».proof.Proof.Kernel.NormRegion
import proofs.«110378_j41815801594316_1_alg».proof.Proof.Kernel.GemmShares

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch. -/
abbrev W0 : Dev nD → Valuation τ sig (Elt F) := fun c b => m ((c : Dev nD), b)
/-- The same read at the TensorCore's references: what the first region's proof data take. -/
abbrev at0 : (c : Dev nD) → (b : Ref sig .tc) → Buf (Elt F) ((c : Thread nD τ).loc b) := fun c b => W0 m c b

/-- After the first region: its arrays at what the pipeline leaves, every other buffer as launched. -/
def W1 (c : Dev nD) : Valuation τ sig (Elt F) :=
  Pipeline.withArrays spec0 c (W0 m c) fun w => (Norm.dat (at0 m) c).arrAt w cfg0.N
theorem W1_arr (c : Dev nD) (w : Fin cfg0.W) :
    W1 m c (Proc.devRef .tc (Pipeline.arrRef spec0 w)) = (Norm.dat (at0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the second region's proof data take. -/
abbrev at1 : (c : Dev nD) → (b : Ref sig .tc) → Buf (Elt F) ((c : Thread nD τ).loc b) := fun c b => W1 m c b
theorem norm_final (c : Dev nD) (w : Fin cfg0.W) : (Norm.dat (at0 m) c).arrAt w cfg0.N = at1 m c (Pipeline.arrRef spec0 w) :=
  (W1_arr m c w).symm
theorem norm_rest (c : Dev nD) : ∀ b, b ∉ Finset.univ.image (Pipeline.arrRef spec0) → at1 m c b = at0 m c b :=
  fun b hb => W1_of_ne m c b fun w e => hb (Finset.mem_image.mpr ⟨w, Finset.mem_univ _, e⟩)

/-- After the second region: the result array at what the pipeline leaves, every other buffer as before it. -/
def W2 (c : Dev nD) : Valuation τ sig (Elt F) :=
  Function.update (W1 m c) (Proc.devRef .tc main_v1) ((Gemm.dat (at1 m) c).arrAt 2 cfg1.N)
theorem W2_result (c : Dev nD) : W2 m c (Proc.devRef .tc main_v1) = (Gemm.dat (at1 m) c).arrAt 2 cfg1.N := by
  unfold W2; exact Function.update_self ..
theorem W2_of_ne (c : Dev nD) (b : Ref sig .tc) (hb : b ≠ main_v1) :
    W2 m c (Proc.devRef .tc b) = W1 m c (Proc.devRef .tc b) := by
  unfold W2; exact Function.update_of_ne (StableHlo.devRef_ne_of_ne hb) ..
abbrev at2 : (c : Dev nD) → (b : Ref sig .tc) → Buf (Elt F) ((c : Thread nD τ).loc b) := fun c b => W2 m c b

/-- The argument array ends as launched: the first region only reads it, the second bypasses it. -/
theorem W2_arg (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((Norm.dat (at0 m) c).arrAt_in 0 rfl _).trans (Norm.A_eq (at0 m) c 0))
    _ = m ((c : Thread nD τ).loc main_arg0) := rfl

/-- The intermediate array as the second region finds it is what the first region's write-backs leave. -/
theorem at1_mid (c : Dev nD) : at1 m c main_v0 = (Norm.dat (at0 m) c).arrAt 1 cfg0.N := W1_arr m c 1

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Norm.dat (at0 m) c
  | ⟨1, _⟩ => fun c => Gemm.dat (at1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The row-normalising region: entered from every unscoped buffer at `W0`, left at `W1`. -/
def normSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Norm.body_obligation (at0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (at0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (at0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (at0 m c) (at1 m c) ((pdats m 0 c).arrAt · cfg0.N) (norm_final m c) (norm_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second region's unscoped rest does not see the result array's change. -/
theorem gemm_rest (c : Dev nD) :
    (Pipeline.unscopedRest (Ix := Unit) (Name := ℕ) (U := UR sig nD τ) (Lvl := ℕ) spec1 c (at1 m c) : sProp 𝕄)
      = Pipeline.unscopedRest spec1 c (at2 m c) := by
  unfold Pipeline.unscopedRest
  refine bigSep_congr fun b hb => ?_
  have hne : b ≠ main_v1 := fun e => (Finset.mem_sdiff.mp hb).2 (Finset.mem_image.mpr ⟨2, Finset.mem_univ _, e.symm⟩)
  rw [show at2 m c b = at1 m c b from W2_of_ne m c b hne]

set_option backward.isDefEq.respectTransparency.types false in
/-- The similarity region: entered from every unscoped buffer at `W1`, left at `W2`. The intermediate array's
    buffer is split along the share between the two windows that read it, and joined back at the exit. -/
def gemmSeg : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Gemm.body_obligation (at1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (at1 m c)
  hentry c := by
    rw [Pipeline.ownSems0_none]
    have hsplit := Pipeline.unscopedBufs_split₀ (Ix := Unit) (Name := ℕ) (U := UR sig nD τ) (Lvl := ℕ) (Val := Elt F) cfgs 1 winFacts₀1.arr_unscoped c (at1 m c)
    rw [Pipeline.unscopedBufs_held] at hsplit
    have hopen : StableHlo.held (c : Thread nD τ) (Pipeline.ucRefs τ sig) (W1 m c)
        ⊢ (iprop((pdats m 1 c).arrays ((pdats m 1 c).arrAt · 0) ∗ Pipeline.unscopedRest spec1 c (at1 m c)) : sProp 𝕄) := by
      rw [hsplit]
      exact sep_mono (Gemm.arrays_of_bufs (at1 m) c) .rfl
    iintro ⟨⟨Hub, Hp, HO⟩, -, -⟩
    ihave H := hopen $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) (Val := Elt F) cfgs 1 winFacts₀1.arr_unscoped c (at2 m c)
    rw [Pipeline.unscopedBufs_held] at hsplit
    have hjoin : (iprop((pdats m 1 c).arrays ((pdats m 1 c).arrAt · cfg1.N) ∗ Pipeline.unscopedRest spec1 c (at1 m c)) : sProp 𝕄)
        ⊢ StableHlo.held (c : Thread nD τ) (Pipeline.ucRefs τ sig) (W2 m c) := by
      rw [hsplit, gemm_rest m c]
      exact sep_mono (Gemm.bufs_of_arrays (at1 m) c (at2 m c) (W2_of_ne m c main_v0 (by decide)) (W2_result m c)) .rfl
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments: a region per pallas_call. -/
abbrev segs : List (Pipeline.Seg (pcfgs (F := F)) adm (pdats m) () defs₀ 𝒱₀ L lv) :=
  [ .region (normSeg m), .region (gemmSeg m) ]

theorem main_run (c : Dev nD) : main (F := F) c = Pipeline.Seg.run (segs m) :=
  main_segs adm (pdats m) () 𝒱₀ L lv (normSeg m) (gemmSeg m) c

set_option backward.isDefEq.respectTransparency.types false in
/-- THE RUN. From any memory with zero counters every weakly fair execution of @main terminates, nothing
    faulting, and every final state has the result array at what the second region's write-backs leave and the
    argument array as launched. -/
theorem run_main : θ_run defs (onTc (τ := τ) (main (F := F))) ⟨m, fun _ => 0, ρ⟩ (fun r => ∀ c : Dev nD,
      r.2.mem ((c.tc : Thread nD τ).loc main_v1) = (Gemm.dat (at1 m) c).arrAt 2 cfg1.N
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_result m c),
       (h c _ (mem_uc main_arg0 (by decide))).trans (W2_arg m c)⟩)

end Cert.Kernel.Run

end
-- ==== Proof.KernelIdeal.NormRegion.lean ====
/-
  The first kernel region: the row-normalising kernel on its grid of 4 points.

  At point `t` the pipeline stages rows `2048·t … 2048·t + 2047` of the feature matrix (window 0), the body
  computes from that block alone one block of the same shape and stores it whole into window 1's staging buffer,
  and the pipeline writes that buffer back to rows `2048·t …` of the intermediate array. This module states
  what the body leaves (`Norm.out`), proves the body's triple, and gives the region's proof data at any contents
  `V` the region may be entered from.
-/
import proofs.«110378_j41815801594316_1_alg».proof.Proof.Gen.KernelIdeal.Launch
import proofs.«110378_j41815801594316_1_alg».proof.Proof.Gen.KernelIdeal.Skeleton
import proofs.«110378_j41815801594316_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at every point, for any proof data that reads the array
    off `V` and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The one rectangle the body loads and stores through: the whole 2048 × 256 block. -/
abbrev whole : Rect S2048x256 := Rect.unit (s := S2048x256) ![0, 0] S2048x256.size inb_S2048x256_S2048x256_0_0

/-- What the body leaves in the output window's staging buffer, from the feature block: its one store. -/
def out (x0 : Vec F S2048x256 .f32) : Vec F S2048x256 .bf16 :=
  View.canon [⟨whole, k0_pay1 (View.ld x0 whole)⟩]

/-- The one store covers the buffer. -/
theorem cover (p0 : Vec F S2048x256 .bf16) (y : S2048x256.Idx) :
    ∃ pc ∈ ([⟨whole, p0⟩] : List (View.Piece (Elt F) S2048x256 .bf16)), y ∈ pc.1.set :=
  View.cover_of_tiled [⟨whole, p0⟩] S2048x256.size (by rfl) y

set_option maxHeartbeats 1000000 in
/-- The body on whole staging memrefs, the feature block at `x0` and the output buffer at anything, runs to the
    continuation with the feature block as it was and the output buffer at `out x0`. -/
theorem sound_kernel (c : Dev nD) (E : Set ℕ) (i : grid0.Coords) (arg1 : Memref sig .tc .vmem S2048x256 .f32) (harg1 : arg1.IsWhole)
    (arg2 : Memref sig .tc .vmem S2048x256 .bf16) (harg2 : arg2.IsWhole)
    (x0 : Vec F S2048x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc0__norm_kernel i arg1 harg1 arg2 harg2) K := by
  simp only [cc0__norm_kernel_eq_skeleton]; unfold cc0__norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

/-- The region's proof data on core `c`: the arrays as the region finds them; after the body at point `t` the
    feature window's buffer at its block and the output window's at `out` of that block; the invariant the
    scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => out (blk V c 0 t)
  Φ _ := Pipeline.ΦA spec0 c
  q _ := fullShare
  owed _ := 0

theorem A_eq (c : Dev nD) (w : Fin cfg0.W) : (dat V c).A w = V c (Pipeline.arrRef spec0 w) := by
  dsimp only [dat]
theorem after_in (c : Dev nD) (t : Fin cfg0.N) : (dat V c).after 0 t = blk V c 0 t := by dsimp only [dat]
theorem after_out (c : Dev nD) (t : Fin cfg0.N) : (dat V c).after 1 t = out (blk V c 0 t) := by dsimp only [dat]

theorem before_in (c : Dev nD) (t : Fin cfg0.N) (d) : (dat V c).before 0 t d = blk V c 0 t :=
  before_in_of V (dat V c) (A_eq V c 0) (after_in V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).Φ t.succ = (dat V c).Φ t.castSucc from rfl,
    show (dat V c).owesAt () t.succ = (dat V c).owesAt () t.castSucc from rfl,
    after_in, after_out]
  iintro ⟨HΦ, Ho, ⟨%d0, H0⟩, ⟨%d1, H1⟩⟩
  iapply (sound_kernel c Set.univ _ _ _ _ _ (blk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the pipeline rule, at every point. -/
theorem body_obligation (c : Dev nD) : BodyObligation (dat (F := F) V c) (defs₀ (F := F)) Variants.none () Set.univ := fun t => by
  rw [bigSep_W0, bigSep_W0]
  exact sound_body V c t

end Cert.KernelIdeal.Norm

end
-- ==== Proof.KernelIdeal.GemmRegion.lean ====
/-
  The second kernel region: the similarity kernel on its 8 × 8 grid.

  At point `(i, j)` the pipeline stages rows `1024·i …` of the intermediate array through window 0 and rows
  `1024·j …` of the SAME array through window 1; the body contracts the two blocks over their 256 columns,
  clamps at zero and stores the 1024 × 1024 result whole into window 2's staging buffer, which the pipeline
  writes back as block `(i, j)` of the result. Because two windows read one array, the region holds that
  array as two complementary shares, one per window (`dat`'s `q`).
-/
import proofs.«110378_j41815801594316_1_alg».proof.Proof.Gen.KernelIdeal.Launch
import proofs.«110378_j41815801594316_1_alg».proof.Proof.Gen.KernelIdeal.Skeleton
import proofs.«110378_j41815801594316_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gemm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block at every point, refetched there or not. -/
theorem before_rows_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The column-block window's likewise. -/
theorem before_cols_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The rectangles the body loads and stores through: each a whole block. -/
abbrev wholeIn : Rect S1024x256 := Rect.unit (s := S1024x256) ![0, 0] S1024x256.size inb_S1024x256_S1024x256_0_0
abbrev wholeOut : Rect S1024x1024 := Rect.unit (s := S1024x1024) ![0, 0] S1024x1024.size inb_S1024x1024_S1024x1024_0_0

/-- What the body leaves in the result window's staging buffer, from the two row blocks: its one store. -/
def out (a b : Vec F S1024x256 .bf16) : Vec F S1024x1024 .f32 :=
  View.canon [⟨wholeOut, k1_pay1 (View.ld a wholeIn) (View.ld b wholeIn)⟩]

/-- The one store covers the buffer. -/
theorem cover (p0 : Vec F S1024x1024 .f32) (y : S1024x1024.Idx) :
    ∃ pc ∈ ([⟨wholeOut, p0⟩] : List (View.Piece (Elt F) S1024x1024 .f32)), y ∈ pc.1.set :=
  View.cover_of_tiled [⟨wholeOut, p0⟩] S1024x1024.size (by rfl) y

set_option maxHeartbeats 1000000 in
/-- The body on whole staging memrefs, the two row blocks at `a` and `b` and the result buffer at anything, runs
    to the continuation with the row blocks as they were and the result buffer at `out a b`. -/
theorem sound_kernel (c : Dev nD) (E : Set ℕ) (i : grid1.Coords) (arg2 : Memref sig .tc .vmem S1024x256 .bf16) (harg2 : arg2.IsWhole)
    (arg3 : Memref sig .tc .vmem S1024x256 .bf16) (harg3 : arg3.IsWhole)
    (arg4 : Memref sig .tc .vmem S1024x1024 .f32) (harg4 : arg4.IsWhole)
    (a b : Vec F S1024x256 .bf16) (K : PUnit → sProp 𝕄) :
    iprop(owns (c : Thread nD τ) arg2 fullShare a ∗ owns (c : Thread nD τ) arg3 fullShare b ∗ (∃ d, owns (c : Thread nD τ) arg4 fullShare d)
        ∗ (iprop(owns (c : Thread nD τ) arg2 fullShare a ∗ owns (c : Thread nD τ) arg3 fullShare b
            ∗ owns (c : Thread nD τ) arg4 fullShare (out a b)) -∗ K ⟨⟩))
      ⊢ wp frame (wpE (defs₀ (F := F)) Variants.none c none) E (cc1__gemm_clamp_kernel i arg2 harg2 arg3 harg3 arg4 harg4) K := by
  simp only [cc1__gemm_clamp_kernel_eq_skeleton]; unfold cc1__gemm_clamp_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The region's proof data on core `c`: the arrays as the region finds them; after the body at point `t` each
    input window's buffer at its block and the result window's at `out` of the two blocks; the invariant the
    scoped rest and the generator register, untouched; nothing owed; the shared input array held as its left half
    share by the row-block window and as its right half share by the column-block window. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => out (blk V c 0 t) (blk V c 1 t)
  Φ _ := Pipeline.ΦA spec1 c
  q w := match w with
    | ⟨0, _⟩ => (fullShare : PosShare TreeShare).left
    | ⟨1, _⟩ => (fullShare : PosShare TreeShare).right
    | ⟨2, _⟩ => fullShare
  owed _ := 0

theorem A_eq (c : Dev nD) (w : Fin cfg1.W) : (dat V c).A w = V c (Pipeline.arrRef spec1 w) := by
  dsimp only [dat]
theorem after_rows (c : Dev nD) (t : Fin cfg1.N) : (dat V c).after 0 t = blk V c 0 t := by dsimp only [dat]
theorem after_cols (c : Dev nD) (t : Fin cfg1.N) : (dat V c).after 1 t = blk V c 1 t := by dsimp only [dat]
theorem after_out (c : Dev nD) (t : Fin cfg1.N) : (dat V c).after 2 t = out (blk V c 0 t) (blk V c 1 t) := by dsimp only [dat]

theorem before_rows (c : Dev nD) (t : Fin cfg1.N) (d) : (dat V c).before 0 t d = blk V c 0 t :=
  before_rows_of V (dat V c) (A_eq V c 0) (after_rows V c) t d
theorem before_cols (c : Dev nD) (t : Fin cfg1.N) (d) : (dat V c).before 1 t d = blk V c 1 t :=
  before_cols_of V (dat V c) (A_eq V c 1) (after_cols V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_cols]
  rw [show (dat V c).Φ t.succ = (dat V c).Φ t.castSucc from rfl,
    show (dat V c).owesAt () t.succ = (dat V c).owesAt () t.castSucc from rfl,
    after_rows, after_cols, after_out]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline rule, at every point. -/
theorem body_obligation (c : Dev nD) : BodyObligation (dat (F := F) V c) (defs₀ (F := F)) Variants.none () Set.univ := fun t => by
  rw [bigSep_W1, bigSep_W1]
  exact sound_body V c t

end Cert.KernelIdeal.Gemm

end
-- ==== Proof.KernelIdeal.GemmShares.lean ====
/-
  The similarity region holds ONE array through two windows. At its entry the array's buffer, held whole, is
  split along the share into a left half for the row-block window and a right half for the column-block window;
  at its exit the two halves, still at the contents they were split at, are joined back. The result array is
  held outright by its one window.
-/
import proofs.«110378_j41815801594316_1_alg».proof.Proof.KernelIdeal.GemmRegion

set_option maxRecDepth 16384

noncomputable section

namespace Cert.KernelIdeal.Gemm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the region's three windows are two: the intermediate array and the result array. -/
theorem arrRefs_eq : (Finset.univ.image (Pipeline.arrRef spec1) : Finset (Ref sig .tc)) = insert main_v0 {main_v1} := by decide

/-- The three windows' shares: the two halves of the full share, and the full share. -/
theorem share_rows (c : Dev nD) : (dat V c).share 0 = (fullShare : PosShare TreeShare).left := rfl
theorem share_cols (c : Dev nD) : (dat V c).share 1 = (fullShare : PosShare TreeShare).right := rfl
theorem share_out (c : Dev nD) : (dat V c).share 2 = fullShare := rfl

/-- ENTRY: the two buffers whole at the entry contents are the region's arrays at their entry contents. -/
theorem arrays_of_bufs (c : Dev nD) :
    (Pipeline.arrBufs (Ix := Unit) (Name := ℕ) (U := UR sig nD τ) (Lvl := ℕ) spec1 c (V c) : sProp 𝕄)
      ⊢ (dat V c).arrays ((dat V c).arrAt · 0) := by
  unfold Pipeline.arrBufs Dat.arrays
  rw [arrRefs_eq, bigSep_insert (by decide), bigSep_singleton, bigSep_W1]
  rw [(arr_whole1 0).set_eq_univ, (arr_whole1 2).set_eq_univ, share_rows, share_cols, share_out]
  refine (show iprop((((c : Thread nD τ).loc main_v0) ↦{fullShare} V c main_v0) ∗ (((c : Thread nD τ).loc main_v1) ↦{fullShare} V c main_v1)) ⊢ _ from ?_)
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-- EXIT: the region's arrays at their final contents are the two buffers whole at any valuation that keeps the
    intermediate array as it was entered and has the result array at what the write-backs leave. -/
theorem bufs_of_arrays (c : Dev nD) (V' : (b : Ref sig .tc) → Buf (Elt F) ((c : Thread nD τ).loc b))
    (h0 : V' main_v0 = V c main_v0) (h1 : V' main_v1 = (dat V c).arrAt 2 cfg1.N) :
    (dat V c).arrays ((dat V c).arrAt · cfg1.N)
      ⊢ (Pipeline.arrBufs (Ix := Unit) (Name := ℕ) (U := UR sig nD τ) (Lvl := ℕ) spec1 c V' : sProp 𝕄) := by
  unfold Pipeline.arrBufs Dat.arrays
  rw [arrRefs_eq, bigSep_insert (by decide), bigSep_singleton, bigSep_W1]
  rw [(arr_whole1 0).set_eq_univ, (arr_whole1 2).set_eq_univ, share_rows, share_cols, share_out, h0, h1]
  dsimp only
  rw [(dat V c).arrAt_in 0 rfl cfg1.N, (dat V c).arrAt_in 1 rfl cfg1.N, A_eq, A_eq]
  refine (show _ ⊢ iprop((((c : Thread nD τ).loc main_v0) ↦{fullShare} V c main_v0) ∗ (((c : Thread nD τ).loc main_v1) ↦{fullShare} (dat V c).arrAt 2 cfg1.N)) from ?_)
  iintro ⟨Hl, Hr, H1⟩
  isplitl [Hl Hr]
  · iapply (pointsTo_share (PosShare.mem_left_op_right fullShare)).2
    isplitl [Hl]; · iexact Hl
    iexact Hr
  iexact H1

end Cert.KernelIdeal.Gemm

end
-- ==== Proof.KernelIdeal.Run.lean ====
/-
  The whole program: the row-normalising region, then the similarity region.

  Between the two regions, and at the end, a core's unscoped buffers are held whole at named contents: at launch
  the memory's (`W0`); after the first region the same but for the intermediate array, which holds what the
  first region's write-backs leave (`W1`); after the second the same but for the result array, which holds what
  the second region's write-backs leave (`W2`). Each region takes its arrays out of that state, runs its pipeline,
  and puts them back; the generator register and the (empty) debt ride along. The run theorem reads the result
  array and the argument array off the last state.
-/
import proofs.«110378_j41815801594316_1_alg».proof.Proof.KernelIdeal.NormRegion
import proofs.«110378_j41815801594316_1_alg».proof.Proof.KernelIdeal.GemmShares

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch. -/
abbrev W0 : Dev nD → Valuation τ sig (Elt F) := fun c b => m ((c : Dev nD), b)
/-- The same read at the TensorCore's references: what the first region's proof data take. -/
abbrev at0 : (c : Dev nD) → (b : Ref sig .tc) → Buf (Elt F) ((c : Thread nD τ).loc b) := fun c b => W0 m c b

/-- After the first region: its arrays at what the pipeline leaves, every other buffer as launched. -/
def W1 (c : Dev nD) : Valuation τ sig (Elt F) :=
  Pipeline.withArrays spec0 c (W0 m c) fun w => (Norm.dat (at0 m) c).arrAt w cfg0.N
theorem W1_arr (c : Dev nD) (w : Fin cfg0.W) :
    W1 m c (Proc.devRef .tc (Pipeline.arrRef spec0 w)) = (Norm.dat (at0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the second region's proof data take. -/
abbrev at1 : (c : Dev nD) → (b : Ref sig .tc) → Buf (Elt F) ((c : Thread nD τ).loc b) := fun c b => W1 m c b
theorem norm_final (c : Dev nD) (w : Fin cfg0.W) : (Norm.dat (at0 m) c).arrAt w cfg0.N = at1 m c (Pipeline.arrRef spec0 w) :=
  (W1_arr m c w).symm
theorem norm_rest (c : Dev nD) : ∀ b, b ∉ Finset.univ.image (Pipeline.arrRef spec0) → at1 m c b = at0 m c b :=
  fun b hb => W1_of_ne m c b fun w e => hb (Finset.mem_image.mpr ⟨w, Finset.mem_univ _, e⟩)

/-- After the second region: the result array at what the pipeline leaves, every other buffer as before it. -/
def W2 (c : Dev nD) : Valuation τ sig (Elt F) :=
  Function.update (W1 m c) (Proc.devRef .tc main_v1) ((Gemm.dat (at1 m) c).arrAt 2 cfg1.N)
theorem W2_result (c : Dev nD) : W2 m c (Proc.devRef .tc main_v1) = (Gemm.dat (at1 m) c).arrAt 2 cfg1.N := by
  unfold W2; exact Function.update_self ..
theorem W2_of_ne (c : Dev nD) (b : Ref sig .tc) (hb : b ≠ main_v1) :
    W2 m c (Proc.devRef .tc b) = W1 m c (Proc.devRef .tc b) := by
  unfold W2; exact Function.update_of_ne (StableHlo.devRef_ne_of_ne hb) ..
abbrev at2 : (c : Dev nD) → (b : Ref sig .tc) → Buf (Elt F) ((c : Thread nD τ).loc b) := fun c b => W2 m c b

/-- The argument array ends as launched: the first region only reads it, the second bypasses it. -/
theorem W2_arg (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((Norm.dat (at0 m) c).arrAt_in 0 rfl _).trans (Norm.A_eq (at0 m) c 0))
    _ = m ((c : Thread nD τ).loc main_arg0) := rfl

/-- The intermediate array as the second region finds it is what the first region's write-backs leave. -/
theorem at1_mid (c : Dev nD) : at1 m c main_v0 = (Norm.dat (at0 m) c).arrAt 1 cfg0.N := W1_arr m c 1

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Norm.dat (at0 m) c
  | ⟨1, _⟩ => fun c => Gemm.dat (at1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The row-normalising region: entered from every unscoped buffer at `W0`, left at `W1`. -/
def normSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Norm.body_obligation (at0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (at0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (at0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (at0 m c) (at1 m c) ((pdats m 0 c).arrAt · cfg0.N) (norm_final m c) (norm_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second region's unscoped rest does not see the result array's change. -/
theorem gemm_rest (c : Dev nD) :
    (Pipeline.unscopedRest (Ix := Unit) (Name := ℕ) (U := UR sig nD τ) (Lvl := ℕ) spec1 c (at1 m c) : sProp 𝕄)
      = Pipeline.unscopedRest spec1 c (at2 m c) := by
  unfold Pipeline.unscopedRest
  refine bigSep_congr fun b hb => ?_
  have hne : b ≠ main_v1 := fun e => (Finset.mem_sdiff.mp hb).2 (Finset.mem_image.mpr ⟨2, Finset.mem_univ _, e.symm⟩)
  rw [show at2 m c b = at1 m c b from W2_of_ne m c b hne]

set_option backward.isDefEq.respectTransparency.types false in
/-- The similarity region: entered from every unscoped buffer at `W1`, left at `W2`. The intermediate array's
    buffer is split along the share between the two windows that read it, and joined back at the exit. -/
def gemmSeg : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Gemm.body_obligation (at1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (at1 m c)
  hentry c := by
    rw [Pipeline.ownSems0_none]
    have hsplit := Pipeline.unscopedBufs_split₀ (Ix := Unit) (Name := ℕ) (U := UR sig nD τ) (Lvl := ℕ) (Val := Elt F) cfgs 1 winFacts₀1.arr_unscoped c (at1 m c)
    rw [Pipeline.unscopedBufs_held] at hsplit
    have hopen : StableHlo.held (c : Thread nD τ) (Pipeline.ucRefs τ sig) (W1 m c)
        ⊢ (iprop((pdats m 1 c).arrays ((pdats m 1 c).arrAt · 0) ∗ Pipeline.unscopedRest spec1 c (at1 m c)) : sProp 𝕄) := by
      rw [hsplit]
      exact sep_mono (Gemm.arrays_of_bufs (at1 m) c) .rfl
    iintro ⟨⟨Hub, Hp, HO⟩, -, -⟩
    ihave H := hopen $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) (Val := Elt F) cfgs 1 winFacts₀1.arr_unscoped c (at2 m c)
    rw [Pipeline.unscopedBufs_held] at hsplit
    have hjoin : (iprop((pdats m 1 c).arrays ((pdats m 1 c).arrAt · cfg1.N) ∗ Pipeline.unscopedRest spec1 c (at1 m c)) : sProp 𝕄)
        ⊢ StableHlo.held (c : Thread nD τ) (Pipeline.ucRefs τ sig) (W2 m c) := by
      rw [hsplit, gemm_rest m c]
      exact sep_mono (Gemm.bufs_of_arrays (at1 m) c (at2 m c) (W2_of_ne m c main_v0 (by decide)) (W2_result m c)) .rfl
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments: a region per pallas_call. -/
abbrev segs : List (Pipeline.Seg (pcfgs (F := F)) adm (pdats m) () defs₀ 𝒱₀ L lv) :=
  [ .region (normSeg m), .region (gemmSeg m) ]

theorem main_run (c : Dev nD) : main (F := F) c = Pipeline.Seg.run (segs m) :=
  main_segs adm (pdats m) () 𝒱₀ L lv (normSeg m) (gemmSeg m) c

set_option backward.isDefEq.respectTransparency.types false in
/-- THE RUN. From any memory with zero counters every weakly fair execution of @main terminates, nothing
    faulting, and every final state has the result array at what the second region's write-backs leave and the
    argument array as launched. -/
theorem run_main : θ_run defs (onTc (τ := τ) (main (F := F))) ⟨m, fun _ => 0, ρ⟩ (fun r => ∀ c : Dev nD,
      r.2.mem ((c.tc : Thread nD τ).loc main_v1) = (Gemm.dat (at1 m) c).arrAt 2 cfg1.N
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_result m c),
       (h c _ (mem_uc main_arg0 (by decide))).trans (W2_arg m c)⟩)

end Cert.KernelIdeal.Run

end
-- ==== Proof.CosineSpec.lean ====
/-
  The function both programs compute, stated once over the extended reals.

  For a feature matrix `x` of 8192 rows and 256 columns: each row is divided by its Euclidean length, the
  length floored at the float literal 1e-8 (`unitRows`); the result is the matrix of inner products of those
  rows, every entry clamped below at zero (`gramClamped`). Both the kernel and the reference are this
  composition; they differ only in how the rows are cut into blocks.
-/
import Idealize.ShloMosaic.PureOps.Ideal
import Idealize.ShloMosaic.Lib.ValueIdx

noncomputable section

open scoped BigOperators

namespace Cert.CosineSpec

open Idealize.ShloMosaic Idealize.ShloMosaic.ValueIdx

/-- The feature matrix's shape and the similarity matrix's. -/
abbrev Feat : Shape := ⟨2, ![8192, 256]⟩
abbrev Gram : Shape := ⟨2, ![8192, 8192]⟩

/-- The floor under a row's length: the float literal both programs print for `1e-8`. -/
def lenFloor : EReal := Ideal.ofBits .f32 0x322BCC77#32

/-- The squared length of row `r`: the sum of the squares of its 256 entries. -/
def sqLen (x : Feat.Idx → EReal) (r : Fin 8192) : EReal := ∑ k : Fin 256, x (ix2 r k) * x (ix2 r k)

/-- Every entry divided by its row's floored length. -/
def unitRows (x : Feat.Idx → EReal) : Feat.Idx → EReal :=
  fun i => Ideal.div (x i) (max (Ideal.sqrt (sqLen x (i 0))) lenFloor)

/-- Entry `(p, q)` is the inner product of rows `p` and `q`, clamped below at zero. -/
def gramClamped (y : Feat.Idx → EReal) : Gram.Idx → EReal :=
  fun j => max (∑ k : Fin 256, y (ix2 (j 0) k) * y (ix2 (j 1) k)) 0

/-- The clamped cosine similarities of the rows of `x`. -/
def cosine (x : Feat.Idx → EReal) : Gram.Idx → EReal := gramClamped (unitRows x)

end Cert.CosineSpec

end
-- ==== Proof.LibColumns.lean ====
/-
  Column vectors and row sums read at an index.

  A vector of length a viewed as a column [a, 1]; a column broadcast along its unit axis to [a, b]; and the sum of a
  matrix along its second axis, read at a row.  Each reads ONE entry (or one row) of its operand, named here by
  coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Columns

open Idealize.ShloMosaic Idealize.ShloMosaic.ValueIdx
open scoped BigOperators

variable {α : Type}

/-- A vector of length `a` viewed as a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, n]` matrix of extended reals along its second axis, started from the zero word and read at row
    `r`, is `∑ₖ v(r, k)`. -/
theorem multiReduction_add_row {a n : ℕ} (v : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ v 0x00000000#32 h hφ hacc (ix1 r) = ∑ k : Fin n, v (ix2 r k) := by
  refine (Ideal.multiReduction_add_single v 0x00000000#32 h hφ hacc (ix1 r)).trans ?_
  refine Finset.sum_congr rfl fun k _ => ?_
  exact congrArg v (funext fun ax => Fin.ext (by match ax with | ⟨0, _⟩ => rfl | ⟨1, _⟩ => rfl))

end Cert.Columns

end
-- ==== Proof.KernelIdeal.NormValue.lean ====
/-
  The row-normalising region's value: after its 4 points the intermediate array holds the unit rows of the
  feature matrix.

  The body, read at an entry `(p, k)` of its block, divides the block's entry by the floored Euclidean length of
  the block's row `p`: a row's length needs that row alone, and a block holds whole rows. The block staged at
  point `t` is rows `2048·t … 2048·t + 2047` of the feature matrix and what is computed from it is written back
  to the same rows of the intermediate array, so point `t` writes block `t` of the unit rows; the four blocks
  tile the 8192 rows (row `r` lies in block `r / 2048`), hence the whole array ends at the unit rows.
-/
import proofs.«110378_j41815801594316_1_alg».proof.Proof.KernelIdeal.NormRegion
import proofs.«110378_j41815801594316_1_alg».proof.Proof.CosineSpec
import proofs.«110378_j41815801594316_1_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NormValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The body's arithmetic at entry `(p, k)` of a block `x0`: the entry over the larger of the square root of
    `∑ₖ' x0(p, k')²` and the floor literal. The squares are summed along the row, the sums are viewed as a column,
    the column's root is floored and spread back along the row; the narrowing to bf16 is the identity on the
    extended reals. -/
theorem unit_row_block (x0 : Vec Ideal S2048x256 .f32) (p : Fin 2048) (k : Fin 256) :
    Gen.k0_pay1 (F := Ideal) x0 (ix2 p k)
      = Ideal.div (x0 (ix2 p k))
          (max (Ideal.sqrt (∑ k' : Fin 256, x0 (ix2 p k') * x0 (ix2 p k'))) (Ideal.ofBits .f32 0x322BCC77#32)) := by
  unfold Gen.k0_pay1
  dsimp only
  rw [truncf_apply, divf_apply]
  rw [Cert.Columns.broadcastTo_a1_ab_apply]
  rw [maximumf_apply, broadcast_apply]
  refine congrArg (Ideal.div _) (congrArg₂ max ?_ rfl)
  show Ideal.sqrt (shapeCast S2048x1 _ _ (ix2 p 0)) = _
  refine congrArg Ideal.sqrt ?_
  refine (Cert.Columns.shapeCast_a_a1_apply _ _ p 0).trans ?_
  refine (Cert.Columns.multiReduction_add_row _ _ _ _ p).trans ?_
  rfl

/-- If the block `x0` is rows `r0 … r0 + 2047` of the matrix `X`, the body's result at `(p, k)` is the entry
    `(r0 + p, k)` of the unit rows of `X`: a row's length is computed from that row alone. -/
theorem unit_row_of_rows (X : Cert.CosineSpec.Feat.Idx → EReal) (x0 : Vec Ideal S2048x256 .f32) (r0 : ℕ)
    (hx : ∀ (p : Fin 2048) (k : Fin 256) (h : r0 + p.val < 8192), x0 (ix2 p k) = X (ix2 ⟨r0 + p.val, h⟩ k))
    (p : Fin 2048) (k : Fin 256) (h : r0 + p.val < 8192) :
    Gen.k0_pay1 (F := Ideal) x0 (ix2 p k) = Cert.CosineSpec.unitRows X (ix2 ⟨r0 + p.val, h⟩ k) := by
  rw [unit_row_block]
  unfold Cert.CosineSpec.unitRows Cert.CosineSpec.sqLen Cert.CosineSpec.lenFloor
  show _ = Ideal.div (X (ix2 ⟨r0 + p.val, h⟩ k))
    (max (Ideal.sqrt (∑ k' : Fin 256, X (ix2 ⟨r0 + p.val, h⟩ k') * X (ix2 ⟨r0 + p.val, h⟩ k'))) (Ideal.ofBits .f32 0x322BCC77#32))
  rw [hx p k h]
  refine congrArg (Ideal.div _) (congrArg₂ max (congrArg Ideal.sqrt ?_) rfl)
  exact Finset.sum_congr rfl fun k' _ => by rw [hx p k' h]

theorem zero_offsets : (![0, 0] : Fin 2 → Nat) = fun _ => 0 := funext fun a => by fin_cases a <;> rfl

variable (V : (c : Dev nD) → (b : Ref sig .tc) → Buf (Elt Ideal) ((c : Thread nD τ).loc b))

/-- The printed index maps, decided over the 4 points: both windows' block at point `t` is block row `t`, block
    column `0`. -/
theorem rows_of_point : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the unit rows of the feature matrix as the region found it. -/
theorem flushed_rows (c : Dev nD) (t : Fin cfg0.N) :
    (Norm.dat (F := Ideal) V c).flushed 1 t
      = ((cfg0.win 1).blk t).view.read (Elt Ideal) (Cert.CosineSpec.unitRows (V c main_arg0)) := by
  show (cfg0.win 1).cut (grid0.coords t) ((Norm.dat (F := Ideal) V c).after 1 t) = _
  rw [Norm.after_out]
  unfold Norm.out
  rw [View.canon_unit_zero zero_offsets]
  simp only [View.ld_unit_zero (S := S2048x256) zero_offsets]
  funext j
  obtain ⟨e0, e1, e2, e3⟩ := rows_of_point t
  have ht : t.val < 4 := t.isLt
  have hj0 : (j 0).val < 2048 := (j 0).isLt
  have hj1 : (j 1).val < 256 := (j 1).isLt
  -- the index inside the block, and the index of the array it is written to, by coordinates
  have hL : (win0 1).xinj (grid0.coords t) j = ix2 ⟨(j 0).val, hj0⟩ ⟨(j 1).val, hj1⟩ :=
    funext fun a => Fin.ext (by match a with | ⟨0, _⟩ => rfl | ⟨1, _⟩ => rfl)
  have hrow : 2048 * t.val + (⟨(j 0).val, hj0⟩ : Fin 2048).val < 8192 := by show 2048 * t.val + (j 0).val < 8192; omega
  have hR : ((cfg0.win 1).blk t).view.emb j = ix2 ⟨2048 * t.val + (⟨(j 0).val, hj0⟩ : Fin 2048).val, hrow⟩ ⟨(j 1).val, hj1⟩ :=
    funext fun a => Fin.ext (by
      match a with
      | ⟨0, _⟩ => show win0_1.index t (0 : Fin 2) * 2048 + 1 * (j 0).val = 2048 * t.val + (j 0).val; omega
      | ⟨1, _⟩ => show win0_1.index t (1 : Fin 2) * 256 + 1 * (j 1).val = (j 1).val; omega)
  show Gen.k0_pay1 (F := Ideal) (Norm.blk V c 0 t) ((win0 1).xinj (grid0.coords t) j)
    = Cert.CosineSpec.unitRows (V c main_arg0) (((cfg0.win 1).blk t).view.emb j)
  refine (congrArg (Gen.k0_pay1 (F := Ideal) (Norm.blk V c 0 t)) hL).trans ?_
  refine Eq.trans ?_ (congrArg (Cert.CosineSpec.unitRows (V c main_arg0)) hR).symm
  refine unit_row_of_rows (V c main_arg0) (Norm.blk V c 0 t) (2048 * t.val) (fun p k h => ?_) _ _ hrow
  -- the feature block at point `t` is rows `2048·t …` of the feature matrix
  show V c main_arg0 (((cfg0.win 0).blk t).view.emb (ix2 p k)) = V c main_arg0 (ix2 ⟨2048 * t.val + p.val, h⟩ k)
  refine congrArg (V c main_arg0) (funext fun a => Fin.ext ?_)
  have hp : p.val < 2048 := p.isLt
  match a with
  | ⟨0, _⟩ => show win0_0.index t (0 : Fin 2) * 2048 + 1 * p.val = 2048 * t.val + p.val; omega
  | ⟨1, _⟩ => show win0_0.index t (1 : Fin 2) * 256 + 1 * k.val = k.val; omega

/-- An index of the intermediate array is in point `t`'s block iff each coordinate is in the block's range on its axis. -/
theorem mem_rows (t : Fin cfg0.N) (i : S8192x256.Idx) :
    i ∈ ((cfg0.win 1).blk t).view.set ↔ ∀ a : Fin 2, win0_1.index t a * S2048x256.size a ≤ (i a).val
      ∧ (i a).val < win0_1.index t a * S2048x256.size a + S2048x256.size a := by
  show i ∈ ((View.whole main_v0).slice (win0_1.rect t)).set ↔ _
  rw [View.set_slice_whole, Rect.mem_set_unit]
  exact Iff.rfl

/-- Row `r` is written back at point `r / 2048`: the four blocks of 2048 rows tile the 8192 rows. -/
theorem row_covered (i : S8192x256.Idx) :
    ∃ t : Fin cfg0.N, (cfg0.win 1).flush t = true ∧ i ∈ ((cfg0.win 1).blk t).view.set := by
  have hi0 : (i 0).val < 8192 := (i 0).isLt
  have hi1 : (i 1).val < 256 := (i 1).isLt
  obtain ⟨t, ht⟩ : ∃ t : Fin cfg0.N, t.val = (i 0).val / 2048 :=
    ⟨⟨(i 0).val / 2048, (by omega : (i 0).val / 2048 < 4)⟩, rfl⟩
  obtain ⟨e0, e1, e2, e3⟩ := rows_of_point t
  refine ⟨t, flush0_1 t, ?_⟩
  rw [mem_rows]
  intro a
  match a with
  | ⟨0, _⟩ =>
    show win0_1.index t (0 : Fin 2) * 2048 ≤ (i 0).val ∧ (i 0).val < win0_1.index t (0 : Fin 2) * 2048 + 2048
    omega
  | ⟨1, _⟩ =>
    show win0_1.index t (1 : Fin 2) * 256 ≤ (i 1).val ∧ (i 1).val < win0_1.index t (1 : Fin 2) * 256 + 256
    omega

/-- After all 4 points the intermediate array holds the unit rows of the feature matrix as the region found it. -/
theorem arr_out (c : Dev nD) :
    (Norm.dat (F := Ideal) V c).arrAt 1 cfg0.N = Cert.CosineSpec.unitRows (V c main_arg0) :=
  (Norm.dat (F := Ideal) V c).arrAt_eq_of_cover 1 (Cert.CosineSpec.unitRows (V c main_arg0))
    (fun t _ => flushed_rows V c t) row_covered

end Cert.KernelIdeal.NormValue

end
-- ==== Proof.KernelIdeal.GemmValue.lean ====
/-
  The similarity kernel's result array, read off its 8 × 8 grid of blocks.

  At grid point `(i, j)` the body contracts rows `1024·i …` against rows `1024·j …` of the same
  8192 × 256 array over their 256 columns and clamps each inner product below at zero; the pipeline writes that
  1024 × 1024 block back as block `(i, j)` of the 8192 × 8192 result. Entry `(r, s)` lies in the block of the
  point `(r / 1024, s / 1024)`, so the 64 blocks tile the result and it ends holding, at `(r, s)`, the clamped
  inner product of rows `r` and `s`.
-/
import proofs.«110378_j41815801594316_1_alg».proof.Proof.KernelIdeal.GemmRegion
import proofs.«110378_j41815801594316_1_alg».proof.Proof.CosineSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GemmValue

open Cert.KernelIdeal Cert.KernelIdeal.Gen Idealize.ShloMosaic Idealize.ShloMosaic.TcCoe Idealize.SL.Sem
open Idealize.ShloMosaic.Pipeline (Dat)
open Idealize.ShloMosaic.ValueIdx

/-! ## One block: the clamped inner products of the row block's rows with the column block's rows -/

/-- The left operand keeps its axis 0: it reads the result's row. -/
theorem lhs_row (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
/-- Its axis 1 is contracted: it reads the summation index. -/
theorem lhs_col (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
/-- The right operand keeps its axis 0 too: it reads the result's COLUMN, as a row of its own. -/
theorem rhs_row (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
/-- Its axis 1 is contracted with the left operand's. -/
theorem rhs_col (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The body's arithmetic at entry `(p, q)` of a block: row `p` of the first operand against row `q` of the
    second, summed over the 256 columns, clamped below at zero. -/
theorem block_apply (a b : Vec Ideal S1024x256 .bf16) (p q : Fin 1024) :
    k1_pay1 (F := Ideal) a b (ix2 p q) = max (∑ k : Fin 256, a (ix2 p k) * b (ix2 q k)) 0 := by
  unfold k1_pay1
  rw [shapeCast_self, shapeCast_self]
  show max (FloatOps.matmul dot_S1024x256_S1024x256_S1024x1024_1_1_0_0_n_n none a b (constant (F := Ideal) S1024x1024 .f32 0x00000000#32) (ix2 p q)) (Ideal.ofBits .f32 0x00000000#32) = _
  rw [Ideal.matmul_constant_zero_apply, Ideal.ofBits_zero_f32, ← Equiv.sum_comp (ValueIdx.contrEquiv1 dot_S1024x256_S1024x256_S1024x1024_1_1_0_0_n_n 256 rfl rfl).symm]
  refine congrArg (max · 0) (Finset.sum_congr rfl fun k _ => ?_)
  have hk := ValueIdx.contrEquiv1_symm_val dot_S1024x256_S1024x256_S1024x1024_1_1_0_0_n_n 256 rfl rfl k
  have el : dot_S1024x256_S1024x256_S1024x1024_1_1_0_0_n_n.lhsIdx (ix2 p q) ((ValueIdx.contrEquiv1 dot_S1024x256_S1024x256_S1024x1024_1_1_0_0_n_n 256 rfl rfl).symm k) = ix2 p k := funext fun d => Fin.ext (by
    match d with
    | ⟨0, _⟩ => exact lhs_row _ _
    | ⟨1, _⟩ => exact (lhs_col _ _).trans hk)
  have er : dot_S1024x256_S1024x256_S1024x1024_1_1_0_0_n_n.rhsIdx (ix2 p q) ((ValueIdx.contrEquiv1 dot_S1024x256_S1024x256_S1024x1024_1_1_0_0_n_n 256 rfl rfl).symm k) = ix2 q k := funext fun d => Fin.ext (by
    match d with
    | ⟨0, _⟩ => exact rhs_row _ _
    | ⟨1, _⟩ => exact (rhs_col _ _).trans hk)
  rw [el, er]

/-! ## From the 64 blocks to the array -/

variable (V : (c : Dev nD) → (b : Ref sig .tc) → Buf (Elt Ideal) ((c : Thread nD τ).loc b))

/-- Two reads of one array at equal places have equal products. -/
theorem mul_read_congr (y : S8192x256.Idx → EReal) {i i' j j' : S8192x256.Idx} (hi : i = i') (hj : j = j') :
    y i * y j = y i' * y j' := by rw [hi, hj]

theorem origin_zero : (![0, 0] : Fin 2 → Nat) = fun _ => 0 := funext fun a => by fin_cases a <;> rfl

/-- The three printed index maps at a point `(i, j)`, decided over the 64 points: the row-block window is at
    block `(i, 0)`, the column-block window at block `(j, 0)`, the result window at block `(i, j)`, and both
    coordinates stay below 8. -/
theorem block_indices : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 7
    ∧ win1_2.index t (1 : Fin 2) ≤ 7 :=
  (by decide +kernel : ∀ t : Fin grid1.N, _)

/-- Every block `(r, s)` of the 8 × 8 tiling is some point's. -/
theorem point_of_block : ∀ (r s : Fin 8), ∃ t : Fin cfg1.N, win1_2.index t = ![r.val, s.val] :=
  (by decide +kernel : ∀ (r s : Fin 8), ∃ t : Fin grid1.N, win1_2.index t = ![r.val, s.val])

/-- What point `t` writes back is block `t` of the clamped Gram matrix of the intermediate array as the region
    finds it: entry `(p, q)` of the block is array entry `(1024·i + p, 1024·j + q)`, and the row block's row `p`
    and the column block's row `q` are the array's rows `1024·i + p` and `1024·j + q`. -/
theorem gram_block (c : Dev nD) (t : Fin cfg1.N) :
    (Gemm.dat (F := Ideal) V c).flushed 2 t
      = ((cfg1.win 2).blk t).view.read (Elt Ideal) (Cert.CosineSpec.gramClamped (V c main_v0)) := by
  show (cfg1.win 2).cut (grid1.coords t) ((Gemm.dat (F := Ideal) V c).after 2 t) = _
  rw [Gemm.after_out]
  unfold Gemm.out
  rw [View.canon_unit_zero origin_zero]
  simp only [View.ld_unit_zero (S := S1024x256) origin_zero]
  obtain ⟨e0, e1, e2, e3, -, -⟩ := block_indices t
  funext j
  obtain ⟨p, q, rfl⟩ : ∃ (p : Fin 1024) (q : Fin 1024), j = ix2 p q := ⟨j 0, j 1, eq_ix2 j⟩
  show k1_pay1 (F := Ideal) (Gemm.blk V c 0 t) (Gemm.blk V c 1 t) (ix2 p q)
    = Cert.CosineSpec.gramClamped (V c main_v0) (((cfg1.win 2).blk t).view.emb (ix2 p q))
  refine (block_apply _ _ p q).trans ?_
  unfold Cert.CosineSpec.gramClamped
  refine congrArg (max · 0) (Finset.sum_congr rfl fun k _ => ?_)
  have hp : p.val < 1024 := p.isLt
  have hq : q.val < 1024 := q.isLt
  have hk : k.val < 256 := k.isLt
  have hrow : ((cfg1.win 0).blk t).view.emb (ix2 p k) = ix2 ((((cfg1.win 2).blk t).view.emb (ix2 p q)) 0) k := by
    funext a; apply Fin.ext
    match a with
    | ⟨0, _⟩ => show win1_0.index t (0 : Fin 2) * 1024 + 1 * p.val = win1_2.index t (0 : Fin 2) * 1024 + 1 * p.val; omega
    | ⟨1, _⟩ => show win1_0.index t (1 : Fin 2) * 256 + 1 * k.val = k.val; omega
  have hcol : ((cfg1.win 1).blk t).view.emb (ix2 q k) = ix2 ((((cfg1.win 2).blk t).view.emb (ix2 p q)) 1) k := by
    funext a; apply Fin.ext
    match a with
    | ⟨0, _⟩ => show win1_1.index t (0 : Fin 2) * 1024 + 1 * q.val = win1_2.index t (1 : Fin 2) * 1024 + 1 * q.val; omega
    | ⟨1, _⟩ => show win1_1.index t (1 : Fin 2) * 256 + 1 * k.val = k.val; omega
  exact mul_read_congr (V c main_v0) hrow hcol

/-- An entry of the result is in point `t`'s block iff each coordinate is in the block's range on its axis. -/
theorem mem_gram_block (t : Fin cfg1.N) (i : S8192x8192.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v1).slice (win1_2.rect t)).set ↔ _
  rw [View.set_slice_whole, Rect.mem_set_unit]
  exact Iff.rfl

/-- The blocks tile the result: entry `(r, s)` is in the block of the point at block `(r / 1024, s / 1024)`. -/
theorem covered (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := point_of_block ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_gram_block]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- After all 64 points the result array holds, at `(r, s)`, the inner product of rows `r` and `s` of the
    intermediate array, clamped below at zero. -/
theorem arr_out (c : Dev nD) :
    (Gemm.dat (F := Ideal) V c).arrAt 2 cfg1.N = Cert.CosineSpec.gramClamped (V c main_v0) :=
  (Gemm.dat (F := Ideal) V c).arrAt_eq_of_cover 2 (Cert.CosineSpec.gramClamped (V c main_v0))
    (fun t _ => gram_block V c t) covered

end Cert.KernelIdeal.GemmValue

end
-- ==== Proof.RefValue.lean ====
import proofs.«110378_j41815801594316_1_alg».proof.Proof.Gen.ReferenceIdeal.Run
import proofs.«110378_j41815801594316_1_alg».proof.Proof.Gen.ReferenceIdeal.Read
import proofs.«110378_j41815801594316_1_alg».proof.Proof.CosineSpec

/-!
  The reference program computes the clamped cosine similarities.

  Read at an index, the reference squares the entries, sums each row's 256 squares (from the initial value zero),
  takes the square root, floors it at the literal for 1e-8, divides every entry by its row's floored length, and
  contracts the normalised matrix with its own transpose over the 256 columns before clamping below at zero.
  Entry `(p, q)` of the product is therefore the sum over `k` of the normalised entry `(p, k)` times the
  normalised entry `(q, k)`: the transpose only swaps the two coordinates of the right factor's index.
-/

noncomputable section

open scoped BigOperators

namespace Cert.ReferenceIdeal.RefValue

open Cert.ReferenceIdeal Cert.ReferenceIdeal.Read Cert.CosineSpec Idealize.ShloMosaic Idealize.ShloMosaic.ValueIdx

/-- The reference's row sum at row `p` is the squared length of that row: the initial value is the zero word,
    and the summand at `k` is the square of the entry `(p, k)`. -/
theorem sq_len_at (x : (⟨S8192x256, .f32⟩ : BufTy).Contents (Elt Ideal)) (p : Fin 8192) :
    val_main_v1 (F := Ideal) x (ix1 p) = sqLen x p := by
  rw [val_main_v1_apply, val_main_cst_apply, Ideal.ofBits_def, Ideal.ofBits_zero_f32, zero_add]
  unfold sqLen
  refine Finset.sum_congr rfl fun k _ => ?_
  have e : idx_main_v1 (ix1 p) k = ix2 p k :=
    funext fun a => Fin.ext (by match a with | ⟨0, _⟩ => rfl | ⟨1, _⟩ => rfl)
  rw [val_main_v0_apply, Ideal.mulf_def, e]

/-- The reference's quotient at `(p, k)` is the entry divided by its row's floored length: both broadcasts
    (of the row sums to a column, of the column across the 256 entries) read row `p`. -/
theorem unit_rows_at (x : (⟨S8192x256, .f32⟩ : BufTy).Contents (Elt Ideal)) (p : Fin 8192) (k : Fin 256) :
    val_main_v7 (F := Ideal) x (ix2 p k) = unitRows x (ix2 p k) := by
  have e6 : idx_main_v6 (ix2 p k) = ix2 p (0 : Fin 1) :=
    funext fun a => Fin.ext (by match a with | ⟨0, _⟩ => rfl | ⟨1, _⟩ => rfl)
  have e2 : idx_main_v2 (ix2 p (0 : Fin 1)) = ix1 p :=
    funext fun a => Fin.ext (by match a with | ⟨0, _⟩ => rfl)
  rw [val_main_v7_apply, val_main_v6_apply, e6, val_main_v5_apply, val_main_v3_apply, val_main_v2_apply, e2,
    sq_len_at, val_main_v4_apply, val_main_cst_0_apply]
  simp only [Ideal.hostDivf_def, Ideal.maximumf_def, Ideal.hostUnary_sqrt_def, Ideal.ofBits_def, unitRows, lenFloor]

/-- The reference's result is the clamped Gram matrix of the normalised rows. -/
theorem ref_eq (x : (⟨S8192x256, .f32⟩ : BufTy).Contents (Elt Ideal)) :
    val_main_v11 (F := Ideal) x = cosine x := by
  funext j
  obtain ⟨p, q, rfl⟩ : ∃ (p : Fin 8192) (q : Fin 8192), j = ix2 p q := ⟨j 0, j 1, eq_ix2 j⟩
  rw [val_main_v11_apply, val_main_v9_apply, val_main_v10_apply, val_main_cst_1_apply, Ideal.maximumf_def,
    Ideal.ofBits_def, Ideal.ofBits_zero_f32]
  unfold cosine gramClamped
  refine congrArg (max · 0) (Finset.sum_congr rfl fun k _ => ?_)
  have el : lidx_main_v9 (ix2 p q) k = ix2 p k :=
    funext fun a => Fin.ext (by match a with | ⟨0, _⟩ => rfl | ⟨1, _⟩ => rfl)
  have er : idx_main_v8 (ridx_main_v9 (ix2 p q) k) = ix2 q k :=
    funext fun a => Fin.ext (by match a with | ⟨0, _⟩ => rfl | ⟨1, _⟩ => rfl)
  rw [val_main_v8_apply, el, er, unit_rows_at, unit_rows_at]

end Cert.ReferenceIdeal.RefValue

end
-- ==== Proof.lean ====
/-
  Both programs compute, from a feature matrix `x` of 8192 rows and 256 columns, the matrix of clamped cosine
  similarities of its rows: every row divided by its Euclidean length (floored at the float literal 1e-8), then
  all pairwise inner products of those unit rows, clamped below at zero (`Cert.CosineSpec.cosine`).

  The kernel does it in two pipelined regions — one normalises the rows block by block, one forms the inner
  products block by block, reading the normalised array through two windows at once — and the reference in one
  line of whole-array operations. At the ideal instance a change of float format is the identity, the matrix
  unit's product into a zero accumulator and the host's contraction are the same finite sum, and so are the
  lane reduction and the host's row sum: the two results are the same function of `x`, entry by entry, with no
  algebra beyond `0 + s = s`. Finiteness of the input is not used.

  Frames: each kernel program runs to the end through its two regions with the argument array only read; the
  reference is a straight line of host operations. The idealization rewrote nothing, so `preserves` is trivial.
-/
import proofs.«110378_j41815801594316_1_alg».proof.Defs
import proofs.«110378_j41815801594316_1_alg».proof.Proof.Gen.Kernel
import proofs.«110378_j41815801594316_1_alg».proof.Proof.Gen.KernelIdeal
import proofs.«110378_j41815801594316_1_alg».proof.Proof.Gen.ReferenceIdeal
import proofs.«110378_j41815801594316_1_alg».proof.Proof.Gen.Pre_finite_inputs
import proofs.«110378_j41815801594316_1_alg».proof.Proof.Gen.ReferenceIdeal.Run
import proofs.«110378_j41815801594316_1_alg».proof.Proof.Gen.ReferenceIdeal.Read
import proofs.«110378_j41815801594316_1_alg».proof.Proof.Kernel.Run
import proofs.«110378_j41815801594316_1_alg».proof.Proof.KernelIdeal.Run
import proofs.«110378_j41815801594316_1_alg».proof.Proof.KernelIdeal.NormValue
import proofs.«110378_j41815801594316_1_alg».proof.Proof.KernelIdeal.GemmValue
import proofs.«110378_j41815801594316_1_alg».proof.Proof.RefValue

noncomputable section

namespace Cert.Proof

open Idealize.ShloMosaic Idealize.ShloMosaic.TcCoe Idealize.SL.Sem

/-- The idealized kernel's result array, after both regions, is the clamped cosine similarities of the argument
    array: the second region leaves the clamped Gram matrix of what it finds in the intermediate array, and
    that is what the first region left there, the unit rows of the argument. -/
theorem kernel_result (m : (ℓ : Loc Cert.KernelIdeal.nD Cert.KernelIdeal.τ Cert.KernelIdeal.sig) → Buf (Elt Ideal) ℓ)
    (c : Dev Cert.KernelIdeal.nD) :
    (Cert.KernelIdeal.Gemm.dat (F := Ideal) (Cert.KernelIdeal.Run.at1 m) c).arrAt 2 Cert.KernelIdeal.cfg1.N
      = Cert.CosineSpec.cosine (m ((c.tc : Thread Cert.KernelIdeal.nD Cert.KernelIdeal.τ).loc Cert.KernelIdeal.main_arg0)) := by
  rw [Cert.KernelIdeal.GemmValue.arr_out, Cert.KernelIdeal.Run.at1_mid, Cert.KernelIdeal.NormValue.arr_out]
  rfl

theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Run.run_main (F := Bits) m ρ)

theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Run.run_main (F := Ideal) m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- From memories agreeing on the argument both idealized programs end with the result array at the clamped cosine
    similarities of the argument's rows. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.CosineSpec.cosine (m ((c.tc : Thread Cert.KernelIdeal.nD Cert.KernelIdeal.τ).loc Cert.KernelIdeal.main_arg0)), ?_, ?_⟩
  · exact (θ_run Cert.KernelIdeal.defs _ _).mono (fun _ h c => ⟨(h c).1.trans (kernel_result m c), (h c).2⟩)
      (Cert.KernelIdeal.Run.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v11_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
